-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1600000 : Shape := ⟨1, ![1600000]⟩
abbrev S65x32 : Shape := ⟨2, ![65, 32]⟩
abbrev S32 : Shape := ⟨1, ![32]⟩
abbrev S32x32 : Shape := ⟨2, ![32, 32]⟩
abbrev S3200000 : Shape := ⟨1, ![3200000]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S65x32 : S_.BroadcastsInDim S65x32 (![] : Fin 0 → Fin S65x32.rank)
  reducesTo_S65x32_S_d0_1 : S65x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part2 {F : FTy → Type} [FloatOps F] (main_arg7 : FVec F S32 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg4 : FVec F S32x32 .f32) (main_arg5 : FVec F S32 .f32) (main_arg6 : FVec F S32x32 .f32) (main_arg7 : FVec F S32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg7 main_v33

def fn {F : FTy → Type} [FloatOps F] (main_arg0 : FVec F S100000x32 .f32) (main_arg1 : FVec F S1600000 .f32) (main_arg2 : FVec F S65x32 .f32) (main_arg3 : FVec F S32 .f32) (main_arg4 : FVec F S32x32 .f32) (main_arg5 : FVec F S32 .f32) (main_arg6 : FVec F S32x32 .f32) (main_arg7 : FVec F S32 .f32) (main_arg8 : IVec S3200000 32) (main_arg9 : IVec S3200000 32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S65x32 .f32 := Host.absf main_arg2
  let main_cst_2 : FVec F S_ .f32 := constant S_ .f32 0x7F800000#32
  let main_v10 : FVec F S65x32 .f32 := broadcastInDim S65x32 ![] bcast_S_S65x32 main_cst_2
  let main_v11 : IVec S65x32 1 := cmpf .olt main_v9 main_v10
  let main_c_3 : IVec S_ 1 := constantI S_ 1 1#1
  let main_v12 : IVec S_ 1 := (fun x v => Host.reduce IntOp.andi x v reducesTo_S65x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_v13 main_v16
-- ==== Kernel.lean ====
abbrev S100000x32 : Shape := ⟨2, ![100000, 32]⟩
abbrev S1600000 : Shape := ⟨1, ![1600000]⟩
abbrev S65x32 : Shape := ⟨2, ![65, 32]⟩
abbrev S32 : Shape := ⟨1, ![32]⟩
abbrev S32x32 : Shape := ⟨2, ![32, 32]⟩
abbrev S3200000 : Shape := ⟨1, ![3200000]⟩
abbrev S_ : Shape := ⟨0, ![]⟩
abbrev S3200000x1 : Shape := ⟨2, ![3200000, 1]⟩
abbrev S3200000x32 : Shape := ⟨2, ![3200000, 32]⟩
abbrev S1x32 : Shape := ⟨2, ![1, 32]⟩
abbrev S16000x32 : Shape := ⟨2, ![16000, 32]⟩
abbrev S16000x1 : Shape := ⟨2, ![16000, 1]⟩
abbrev S16000 : Shape := ⟨1, ![16000]⟩

abbrev nBuf : Space → Nat
  | .hbm => 41
  | .vmem => 14
  | .smem => 0
  | _ => 0

abbrev bufTy : (tb : Table) → Fin (tcTables nBuf tb) → BufTy
  | .hbm, ⟨0, _⟩ => ⟨S100000x32, .f32⟩
  | .hbm, ⟨1, _⟩ => ⟨S1600000, .f32⟩
  | .hbm, ⟨2, _⟩ => ⟨S65x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S3200000, .i32⟩
  | .hbm, ⟨9, _⟩ => ⟨S3200000, .i32⟩
  | .hbm, ⟨10, _⟩ => ⟨S_, .i32⟩
  | .hbm, ⟨11, _⟩ => ⟨S3200000, .i32⟩
  | .hbm, ⟨12, _⟩ => ⟨S3200000, .i1⟩
  | .hbm, ⟨13, _⟩ => ⟨S_, .i32⟩
  | .hbm, ⟨14, _⟩ => ⟨S3200000, .i32⟩
  | .hbm, ⟨15, _⟩ => ⟨S3200000, .i32⟩
  | .hbm, ⟨16, _⟩ => ⟨S3200000, .i32⟩
  | .hbm, ⟨17, _⟩ => ⟨S3200000x1, .i32⟩
  | .hbm, ⟨18, _⟩ => ⟨S3200000x32, .f32⟩
  | .hbm, ⟨19, _⟩ => ⟨S_, .i32⟩
  | .hbm, ⟨20, _⟩ => ⟨S3200000, .i32⟩
  | .hbm, ⟨21, _⟩ => ⟨S3200000, .i1⟩
  | .hbm, ⟨22, _⟩ => ⟨S_, .i32⟩
  | .hbm, ⟨23, _⟩ => ⟨S3200000, .i32⟩
  | .hbm, ⟨24, _⟩ => ⟨S3200000, .i32⟩
  | .hbm, ⟨25, _⟩ => ⟨S3200000, .i32⟩
  | .hbm, ⟨26, _⟩ => ⟨S3200000x1, .i32⟩
  | .hbm, ⟨27, _⟩ => ⟨S3200000x32, .f32⟩
  | .hbm, ⟨28, _⟩ => ⟨S3200000, .f32⟩
  | .hbm, ⟨29, _⟩ => ⟨S3200000x1, .f32⟩
  | .hbm, ⟨30, _⟩ => ⟨S1x32, .f32⟩
  | .hbm, ⟨31, _⟩ => ⟨S1x32, .f32⟩
  | .hbm, ⟨32, _⟩ => ⟨S1x32, .f32⟩
  | .hbm, ⟨33, _⟩ => ⟨S3200000x32, .f32⟩
  | .hbm, ⟨34, _⟩ => ⟨S_, .f32⟩
  | .hbm, ⟨35, _⟩ => ⟨S100000x32, .f32⟩
  | .hbm, ⟨36, _⟩ => ⟨S3200000x1, .i32⟩
  | .hbm, ⟨37, _⟩ => ⟨S100000x32, .f32⟩
  | .hbm, ⟨38, _⟩ => ⟨S_, .f32⟩
  | .hbm, ⟨39, _⟩ => ⟨S100000x32, .f32⟩
  | .hbm, ⟨40, _⟩ => ⟨S100000x32, .f32⟩
  | .local _ .vmem, ⟨0, _⟩ => ⟨S16000x32, .f32⟩
  | .local _ .vmem, ⟨1, _⟩ => ⟨S16000x32, .f32⟩
  | .local _ .vmem, ⟨2, _⟩ => ⟨S16000x32, .f32⟩
  | .local _ .vmem, ⟨3, _⟩ => ⟨S16000x32, .f32⟩
  | .local _ .vmem, ⟨4, _⟩ => ⟨S16000x1, .f32⟩
  | .local _ .vmem, ⟨5, _⟩ => ⟨S16000x1, .f32⟩
  | .local _ .vmem, ⟨6, _⟩ => ⟨S65x32, .f32⟩
  | .local _ .vmem, ⟨7, _⟩ => ⟨S1x32, .f32⟩
  | .local _ .vmem, ⟨8, _⟩ => ⟨S32x32, .f32⟩
  | .local _ .vmem, ⟨9, _⟩ => ⟨S1x32, .f32⟩
  | .local _ .vmem, ⟨10, _⟩ => ⟨S32x32, .f32⟩
  | .local _ .vmem, ⟨11, _⟩ => ⟨S1x32, .f32⟩
  | .local _ .vmem, ⟨12, _⟩ => ⟨S16000x32, .f32⟩
  | .local _ .vmem, ⟨13, _⟩ => ⟨S16000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S65x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S16000x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  concatenates_S1600000_S1600000_S3200000_d0 : Shape.Concatenates [S1600000, S1600000] S3200000 0
  shapeCasts_S32_S1x32 : S32.ShapeCasts S1x32
  inb_S16000x32_S16000x32_0_0 : ∀ a, (![0, 0] : Fin 2 → Nat) a + S16000x32.size a ≤ S16000x32.size a
  h_S16000x32 : 0 < S16000x32.numel
  shapeCasts_S16000x32_S16000x32 : S16000x32.ShapeCasts S16000x32
  inb_S16000x1_S16000x1_0_0 : ∀ a, (![0, 0] : Fin 2 → Nat) a + S16000x1.size a ≤ S16000x1.size a
  h_S16000x1 : 0 < S16000x1.numel
  shapeCasts_S16000x1_S16000x1 : S16000x1.ShapeCasts S16000x1
  bitsLt_bf16_f32 : FTy.bits .bf16 < FTy.bits .f32
  inb_S65x32_S65x32_0_0 : ∀ a, (![0, 0] : Fin 2 → Nat) a + S65x32.size a ≤ S65x32.size a
  h_S65x32 : 0 < S65x32.numel
  slices_S65x32_o0_0_S32x32 : S65x32.Slices ![0, 0] S32x32
  slices_S65x32_o32_0_S32x32 : S65x32.Slices ![32, 0] S32x32
  slices_S65x32_o64_0_S1x32 : S65x32.Slices ![64, 0] S1x32
  broadcasts_S16000x1_S16000x32 : S16000x1.Broadcasts S16000x32
  broadcasts_S1x32_S16000x32 : S1x32.Broadcasts S16000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S32x32_S32x32_0_0 : ∀ a, (![0, 0] : Fin 2 → Nat) a + S32x32.size a ≤ S32x32.size a
  h_S32x32 : 0 < S32x32.numel
  reduces_S16000x32_S16000 : S16000x32.Reduces [1] S16000
  shapeCasts_S16000_S16000x1 : S16000.ShapeCasts S16000x1
  bcast_S_S100000x32 : S_.BroadcastsInDim S100000x32 (![] : Fin 0 → Fin S100000x32.rank)
  gather_S100000x32_S3200000x1_S3200000x32_1_0_n_n_0_1_132_wf : GatherDims.WF S100000x32 S3200000x1 S3200000x32 [1] [0] [] [0] [] 1 ![1, 32]
  dot_S16000x32_S32x32_S16000x32_1_0_0_1_n_n_wf : DotDims.WF S16000x32 S32x32 S16000x32 [1] [0] [0] [1] [] []
  scatter_S100000x32_S3200000x1_S3200000x32_1_0_0_1_wf : ScatterDims.WF S100000x32 S3200000x1 S3200000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x32.size a ≤ S3200000x32.size a
  hwx0_0 : ∀ i : grid0.Coords, EltTy.bits .f32 = 32 ∨ (Rect.block (s := S3200000x32) S16000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x32.size a ≤ S3200000x32.size a
  hwx0_1 : ∀ i : grid0.Coords, EltTy.bits .f32 = 32 ∨ (Rect.block (s := S3200000x32) S16000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16000x1.size a ≤ S3200000x1.size a
  hwx0_2 : ∀ i : grid0.Coords, EltTy.bits .f32 = 32 ∨ (Rect.block (s := S3200000x1) S16000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S65x32.size a ≤ S65x32.size a
  hwx0_3 : ∀ i : grid0.Coords, EltTy.bits .f32 = 32 ∨ (Rect.block (s := S65x32) S65x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x32.size a ≤ S32x32.size a
  hwx0_7 : ∀ i : grid0.Coords, EltTy.bits .f32 = 32 ∨ (Rect.block (s := S32x32) S32x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S16000x32.size a ≤ S3200000x32.size a
  hwx0_9 : ∀ i : grid0.Coords, EltTy.bits .f32 = 32 ∨ (Rect.block (s := S3200000x32) S16000x32.size (cc0_transform_9 i) (hinb0_9 i)).WholeWords (EltTy.packing .f32)

variable [Facts₀]

def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def dot_S16000x32_S32x32_S16000x32_1_0_0_1_n_n : DotDims S16000x32 S32x32 S16000x32 where
  lhsContracting := [1]
  rhsContracting := [0]
  lhsNonContracting := [0]
  rhsNonContracting := [1]
  lhsBatch := []
  rhsBatch := []
  wf := dot_S16000x32_S32x32_S16000x32_1_0_0_1_n_n_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf

abbrev win0_0 : Pipeline.Window sig grid0 :=
  Pipeline.Window.ofSpec (Memref.whole main_v6) S16000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S16000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S16000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S65x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S32x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S16000x32.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x32 : Shape := ⟨2, ![100000, 32]⟩
abbrev S1600000 : Shape := ⟨1, ![1600000]⟩
abbrev S65x32 : Shape := ⟨2, ![65, 32]⟩
abbrev S32 : Shape := ⟨1, ![32]⟩
abbrev S32x32 : Shape := ⟨2, ![32, 32]⟩
abbrev S3200000 : Shape := ⟨1, ![3200000]⟩
abbrev S_ : Shape := ⟨0, ![]⟩
abbrev S3200000x1 : Shape := ⟨2, ![3200000, 1]⟩
abbrev S3200000x32 : Shape := ⟨2, ![3200000, 32]⟩
abbrev S3200000x65 : Shape := ⟨2, ![3200000, 65]⟩
abbrev S1x32 : Shape := ⟨2, ![1, 32]⟩

abbrev nBuf : Space → Nat
  | .hbm => 67
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S1600000, .f32⟩
  | .hbm, ⟨2, _⟩ => ⟨S65x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S3200000, .i32⟩
  | .hbm, ⟨9, _⟩ => ⟨S3200000, .i32⟩
  | .hbm, ⟨10, _⟩ => ⟨S_, .i32⟩
  | .hbm, ⟨11, _⟩ => ⟨S3200000, .i32⟩
  | .hbm, ⟨12, _⟩ => ⟨S3200000, .i1⟩
  | .hbm, ⟨13, _⟩ => ⟨S_, .i32⟩
  | .hbm, ⟨14, _⟩ => ⟨S3200000, .i32⟩
  | .hbm, ⟨15, _⟩ => ⟨S3200000, .i32⟩
  | .hbm, ⟨16, _⟩ => ⟨S3200000, .i32⟩
  | .hbm, ⟨17, _⟩ => ⟨S3200000x1, .i32⟩
  | .hbm, ⟨18, _⟩ => ⟨S3200000x32, .f32⟩
  | .hbm, ⟨19, _⟩ => ⟨S_, .i32⟩
  | .hbm, ⟨20, _⟩ => ⟨S3200000, .i32⟩
  | .hbm, ⟨21, _⟩ => ⟨S3200000, .i1⟩
  | .hbm, ⟨22, _⟩ => ⟨S_, .i32⟩
  | .hbm, ⟨23, _⟩ => ⟨S3200000, .i32⟩
  | .hbm, ⟨24, _⟩ => ⟨S3200000, .i32⟩
  | .hbm, ⟨25, _⟩ => ⟨S3200000, .i32⟩
  | .hbm, ⟨26, _⟩ => ⟨S3200000x1, .i32⟩
  | .hbm, ⟨27, _⟩ => ⟨S3200000x32, .f32⟩
  | .hbm, ⟨28, _⟩ => ⟨S3200000, .f32⟩
  | .hbm, ⟨29, _⟩ => ⟨S3200000x1, .f32⟩
  | .hbm, ⟨30, _⟩ => ⟨S3200000x65, .f32⟩
  | .hbm, ⟨31, _⟩ => ⟨S3200000x32, .f32⟩
  | .hbm, ⟨32, _⟩ => ⟨S1x32, .f32⟩
  | .hbm, ⟨33, _⟩ => ⟨S3200000x32, .f32⟩
  | .hbm, ⟨34, _⟩ => ⟨S3200000x32, .f32⟩
  | .hbm, ⟨35, _⟩ => ⟨S_, .f32⟩
  | .hbm, ⟨36, _⟩ => ⟨S3200000x32, .f32⟩
  | .hbm, ⟨37, _⟩ => ⟨S3200000x32, .f32⟩
  | .hbm, ⟨38, _⟩ => ⟨S3200000x32, .f32⟩
  | .hbm, ⟨39, _⟩ => ⟨S1x32, .f32⟩
  | .hbm, ⟨40, _⟩ => ⟨S3200000x32, .f32⟩
  | .hbm, ⟨41, _⟩ => ⟨S3200000x32, .f32⟩
  | .hbm, ⟨42, _⟩ => ⟨S3200000x32, .f32⟩
  | .hbm, ⟨43, _⟩ => ⟨S1x32, .f32⟩
  | .hbm, ⟨44, _⟩ => ⟨S3200000x32, .f32⟩
  | .hbm, ⟨45, _⟩ => ⟨S3200000x32, .f32⟩
  | .hbm, ⟨46, _⟩ => ⟨S3200000x32, .f32⟩
  | .hbm, ⟨47, _⟩ => ⟨S_, .f32⟩
  | .hbm, ⟨48, _⟩ => ⟨S3200000, .f32⟩
  | .hbm, ⟨49, _⟩ => ⟨S3200000x1, .f32⟩
  | .hbm, ⟨50, _⟩ => ⟨S3200000x1, .f32⟩
  | .hbm, ⟨51, _⟩ => ⟨S3200000x1, .f32⟩
  | .hbm, ⟨52, _⟩ => ⟨S_, .f32⟩
  | .hbm, ⟨53, _⟩ => ⟨S3200000x1, .f32⟩
  | .hbm, ⟨54, _⟩ => ⟨S3200000x1, .f32⟩
  | .hbm, ⟨55, _⟩ => ⟨S_, .f32⟩
  | .hbm, ⟨56, _⟩ => ⟨S3200000x1, .f32⟩
  | .hbm, ⟨57, _⟩ => ⟨S3200000x1, .f32⟩
  | .hbm, ⟨58, _⟩ => ⟨S3200000x32, .f32⟩
  | .hbm, ⟨59, _⟩ => ⟨S3200000x32, .f32⟩
  | .hbm, ⟨60, _⟩ => ⟨S_, .f32⟩
  | .hbm, ⟨61, _⟩ => ⟨S100000x32, .f32⟩
  | .hbm, ⟨62, _⟩ => ⟨S3200000x1, .i32⟩
  | .hbm, ⟨63, _⟩ => ⟨S100000x32, .f32⟩
  | .hbm, ⟨64, _⟩ => ⟨S_, .f32⟩
  | .hbm, ⟨65, _⟩ => ⟨S100000x32, .f32⟩
  | .hbm, ⟨66, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call0_cst : Ref sig .tc := ⟨.hbm, 35, rfl⟩
abbrev main_call0_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_v36 : Ref sig .tc := ⟨.hbm, 54, rfl⟩
abbrev main_cst_4 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_5 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_call1_cst : Ref sig .tc := ⟨.hbm, 64, rfl⟩
abbrev main_call1_v0 : Ref sig .tc := ⟨.hbm, 65, rfl⟩
abbrev main_v44 : Ref sig .tc := ⟨.hbm, 66, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  concatenates_S1600000_S1600000_S3200000_d0 : Shape.Concatenates [S1600000, S1600000] S3200000 0
  concatenates_S3200000x32_S3200000x32_S3200000x1_S3200000x65_d1 : Shape.Concatenates [S3200000x32, S3200000x32, S3200000x1] S3200000x65 1
  bcast_S32_S1x32_1 : S32.BroadcastsInDim S1x32 (![1] : Fin 1 → Fin S1x32.rank)
  bcast_S1x32_S3200000x32_0_1 : S1x32.BroadcastsInDim S3200000x32 (![0, 1] : Fin 2 → Fin S3200000x32.rank)
  bcast_S_S3200000x32 : S_.BroadcastsInDim S3200000x32 (![] : Fin 0 → Fin S3200000x32.rank)
  reducesTo_S3200000x32_S3200000_d1 : S3200000x32.ReducesTo [1] S3200000
  h_S_ : 0 < S_.numel
  bcast_S_S3200000x1 : S_.BroadcastsInDim S3200000x1 (![] : Fin 0 → Fin S3200000x1.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  gather_S100000x32_S3200000x1_S3200000x32_1_0_n_n_0_1_132_wf : GatherDims.WF S100000x32 S3200000x1 S3200000x32 [1] [0] [] [0] [] 1 ![1, 32]
  dot_S3200000x65_S65x32_S3200000x32_1_0_0_1_n_n_wf : DotDims.WF S3200000x65 S65x32 S3200000x32 [1] [0] [0] [1] [] []
  dot_S3200000x32_S32x32_S3200000x32_1_0_0_1_n_n_wf : DotDims.WF S3200000x32 S32x32 S3200000x32 [1] [0] [0] [1] [] []
  scatter_S100000x32_S3200000x1_S3200000x32_1_0_0_1_wf : ScatterDims.WF S100000x32 S3200000x1 S3200000x32 [1] [0] [0] 1

variable [Facts₀]

def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def dot_S3200000x65_S65x32_S3200000x32_1_0_0_1_n_n : DotDims S3200000x65 S65x32 S3200000x32 where
  lhsContracting := [1]
  rhsContracting := [0]
  lhsNonContracting := [0]
  rhsNonContracting := [1]
  lhsBatch := []
  rhsBatch := []
  wf := dot_S3200000x65_S65x32_S3200000x32_1_0_0_1_n_n_wf
def dot_S3200000x32_S32x32_S3200000x32_1_0_0_1_n_n : DotDims S3200000x32 S32x32 S3200000x32 where
  lhsContracting := [1]
  rhsContracting := [0]
  lhsNonContracting := [0]
  rhsNonContracting := [1]
  lhsBatch := []
  rhsBatch := []
  wf := dot_S3200000x32_S32x32_S3200000x32_1_0_0_1_n_n_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf

class Facts : Prop extends Facts₀ where

variable [Facts]
-- ==== Proof.Spec.lean ====
/-
  The value both programs compute for one edge, as a function of that edge's rows.

  For edge `e` with receiver features `rf e`, sender features `sf e` and coupling `mc e`:
  * the pre-activation at output column `o` is the row `[rf e, sf e, mc e]` (65 entries) times column `o` of `W1`, plus
    `b1 o` — written here with the 65-term sum already split into the receiver part (rows 0‥31 of `W1`), the sender
    part (rows 32‥63) and the coupling's single term (row 64);
  * the gate is the logistic function of the inner product of `q = sf e · Wq + bq` and `k = rf e · Wk + bk`;
  * the message is `max(pre-activation, 0) · gate`.
  Everything is over the extended reals.  `sum65_split` is the only algebra the equivalence needs: a sum over 65 indices
  is the sum over the first 32, plus the sum over the next 32, plus the last term (addition of extended reals is
  commutative and associative, so no finiteness is involved).  `msg_congr_rows` says that a row of the message depends
  only on the same row of the three per-edge inputs, which is what lets a block of rows be computed on its own.
-/
import Idealize.ShloMosaic.Lib.ValueIdx
import Idealize.ShloMosaic.PureOps.Ideal.Laws

noncomputable section

open scoped BigOperators

namespace Cert.EdgeGate

open Idealize.ShloMosaic Idealize.ShloMosaic.ValueIdx

/-- An `a × b` array of extended reals, indexed as the programs index their rank-2 buffers. -/
abbrev Mat (a b : ℕ) : Type := (⟨2, ![a, b]⟩ : Shape).Idx → EReal

/-- Row `e` of `x` times column `o` of `W`, plus `b o`. -/
def affine {n : ℕ} (x : Mat n 32) (W : Mat 32 32) (b : Fin 32 → EReal) (e : Fin n) (o : Fin 32) : EReal :=
  (∑ k : Fin 32, x (ix2 e k) * W (ix2 k o)) + b o

/-- The edge's pre-activation at column `o`: receiver part, sender part, coupling term, bias. -/
def preact {n : ℕ} (rf sf : Mat n 32) (mc : Mat n 1) (W1 : Mat 65 32) (b1 : Fin 32 → EReal) (e : Fin n) (o : Fin 32) :
    EReal :=
  (((∑ k : Fin 32, rf (ix2 e k) * W1 (ix2 (⟨k.val, by omega⟩ : Fin 65) o))
      + (∑ k : Fin 32, sf (ix2 e k) * W1 (ix2 (⟨32 + k.val, by omega⟩ : Fin 65) o)))
    + mc (ix2 e (0 : Fin 1)) * W1 (ix2 (⟨64, by omega⟩ : Fin 65) o)) + b1 o

/-- The edge's attention gate: the logistic function of `⟨q, k⟩`. -/
def gate {n : ℕ} (rf sf : Mat n 32) (Wq : Mat 32 32) (bq : Fin 32 → EReal) (Wk : Mat 32 32) (bk : Fin 32 → EReal)
    (e : Fin n) : EReal :=
  Ideal.logistic (∑ o : Fin 32, affine sf Wq bq e o * affine rf Wk bk e o)

/-- The edge's message at column `o`. -/
def msgAt {n : ℕ} (rf sf : Mat n 32) (mc : Mat n 1) (W1 : Mat 65 32) (b1 : Fin 32 → EReal) (Wq : Mat 32 32)
    (bq : Fin 32 → EReal) (Wk : Mat 32 32) (bk : Fin 32 → EReal) (e : Fin n) (o : Fin 32) : EReal :=
  max (preact rf sf mc W1 b1 e o) 0 * gate rf sf Wq bq Wk bk e

/-- The messages of `n` edges as an `n × 32` array. -/
def msg {n : ℕ} (rf sf : Mat n 32) (mc : Mat n 1) (W1 : Mat 65 32) (b1 : Fin 32 → EReal) (Wq : Mat 32 32)
    (bq : Fin 32 → EReal) (Wk : Mat 32 32) (bk : Fin 32 → EReal) : Mat n 32 :=
  fun i => msgAt rf sf mc W1 b1 Wq bq Wk bk (i 0) (i 1)

theorem msg_ix2 {n : ℕ} (rf sf : Mat n 32) (mc : Mat n 1) (W1 : Mat 65 32) (b1 : Fin 32 → EReal) (Wq : Mat 32 32)
    (bq : Fin 32 → EReal) (Wk : Mat 32 32) (bk : Fin 32 → EReal) (e : Fin n) (o : Fin 32) :
    msg rf sf mc W1 b1 Wq bq Wk bk (ix2 e o) = msgAt rf sf mc W1 b1 Wq bq Wk bk e o := rfl

/-- A sum over 65 indices: the first 32, the next 32, the last one. -/
theorem sum65_split (f : Fin 65 → EReal) :
    ∑ k : Fin 65, f k
      = ((∑ k : Fin 32, f ⟨k.val, by omega⟩) + (∑ k : Fin 32, f ⟨32 + k.val, by omega⟩)) + f ⟨64, by omega⟩ := by
  rw [Fin.sum_univ_castSucc (n := 64) f, Fin.sum_univ_add (a := 32) (b := 32) (fun i : Fin (32 + 32) => f i.castSucc)]
  rfl

/-- Row `p` of the message of one family of inputs is row `e` of the message of another when the three per-edge
    inputs agree on those rows (the weights and biases being the same). -/
theorem msgAt_congr_rows {n n' : ℕ} (rf sf : Mat n 32) (mc : Mat n 1) (rf' sf' : Mat n' 32) (mc' : Mat n' 1)
    (W1 : Mat 65 32) (b1 : Fin 32 → EReal) (Wq : Mat 32 32) (bq : Fin 32 → EReal) (Wk : Mat 32 32)
    (bk : Fin 32 → EReal) (p : Fin n') (e : Fin n)
    (hrf : ∀ k : Fin 32, rf' (ix2 p k) = rf (ix2 e k)) (hsf : ∀ k : Fin 32, sf' (ix2 p k) = sf (ix2 e k))
    (hmc : mc' (ix2 p (0 : Fin 1)) = mc (ix2 e (0 : Fin 1))) (o : Fin 32) :
    msgAt rf' sf' mc' W1 b1 Wq bq Wk bk p o = msgAt rf sf mc W1 b1 Wq bq Wk bk e o := by
  unfold msgAt preact gate affine
  simp only [hrf, hsf, hmc]

end Cert.EdgeGate

end
-- ==== Proof.LibRowLayout.lean ====
/-
  Layout operations of a ROW-BLOCKED kernel read at an index given by coordinates, for any number of rows `n`.

  A kernel that works on a block of `n` batch rows meets the same few compositions again and again; each lemma here
  reads one of them at an index written `ix1 … ix3`, so that it applies to a printed payload by unification, whatever
  `n` is (the kernel's block has 1024 rows, an array 16384; nothing here depends on it):
  * a per-row column of scalars `[n, a]` given a trailing unit axis and broadcast along it to `[n, a, b]`
    (`x[:, :, None]` against an `[n, a, b]` operand): `colBcast3_apply`;
  * a table `[a, b]` given a leading unit axis and broadcast over the rows to `[n, a, b]` (`w[None, :, :]`):
    `rowBcast3_apply`; a vector `[b]` broadcast over the rows to `[n, b]`: `rowBcast2_apply`;
  * `[n, a, c]` flattened to `[n, a · c]` (`.reshape(n, -1)`): position `k = f · c + e` of row `y` is the
    operand at `(y, f, e)`: `flatten_apply`;
  * two blocks `[n, p]`, `[n, q]` joined along the columns: `concatCols_apply`, the left block below column `p`, the
    right block from it on;
  * a sum over the columns of `[n, K]`, and over the middle axis of `[n, a, b]`, at the ideal values, as `Fin`-indexed
    sums over coordinates: `sumCols_apply`, `sumMid_apply`.
-/
import Idealize.ShloMosaic.Lib.ValueLayout
import Idealize.ShloMosaic.PureOps.Ideal.Laws

namespace Cert.RowLayout

open Idealize.ShloMosaic Idealize.ShloMosaic.ValueIdx

variable {α : Type}

/-- `x[:, :, None]` broadcast to `[n, a, b]`, read at `(y, f, e)`, is `x` at `(y, f)`. -/
theorem colBcast3_apply {n a b : ℕ} (x : (⟨2, ![n, a]⟩ : Shape).Idx → α)
    (h1 : (⟨2, ![n, a]⟩ : Shape).ShapeCasts ⟨3, ![n, a, 1]⟩)
    (h2 : (⟨3, ![n, a, 1]⟩ : Shape).Broadcasts ⟨3, ![n, a, b]⟩) (y : Fin n) (f : Fin a) (e : Fin b) :
    broadcastTo ⟨3, ![n, a, b]⟩ (shapeCast ⟨3, ![n, a, 1]⟩ x h1) h2 (ix3 y f e) = x (ix2 y f) := by
  refine (broadcastTo_apply _ h2 (ix3 y f e) (ix3 y f (0 : Fin 1)) fun ax => ?_).trans ?_
  · match ax with
    | ⟨0, _⟩ =>
      show y.val = if n = 1 then 0 else y.val
      split
      · have := y.isLt; omega
      · rfl
    | ⟨1, _⟩ =>
      show f.val = if a = 1 then 0 else f.val
      split
      · have := f.isLt; omega
      · rfl
    | ⟨2, _⟩ => rfl
  · exact shapeCast_apply x h1 _ _ (by
      rw [Shape.rowMajor_val_two, Shape.rowMajor_val_three]
      show y.val * a + f.val = (y.val * a + f.val) * 1 + 0
      omega)

/-- `w[None, :, :]` broadcast to `[n, a, b]`, read at `(y, f, e)`, is `w` at `(f, e)`. -/
theorem rowBcast3_apply {n a b : ℕ} (w : (⟨2, ![a, b]⟩ : Shape).Idx → α)
    (h1 : (⟨2, ![a, b]⟩ : Shape).ShapeCasts ⟨3, ![1, a, b]⟩)
    (h2 : (⟨3, ![1, a, b]⟩ : Shape).Broadcasts ⟨3, ![n, a, b]⟩) (y : Fin n) (f : Fin a) (e : Fin b) :
    broadcastTo ⟨3, ![n, a, b]⟩ (shapeCast ⟨3, ![1, a, b]⟩ w h1) h2 (ix3 y f e) = w (ix2 f e) := by
  refine (broadcastTo_apply _ h2 (ix3 y f e) (ix3 (0 : Fin 1) f e) fun ax => ?_).trans
    (shapeCast_ab_1ab_apply w h1 0 f e)
  match ax with
  | ⟨0, _⟩ => rfl
  | ⟨1, _⟩ =>
    show f.val = if a = 1 then 0 else f.val
    split
    · have := f.isLt; omega
    · rfl
  | ⟨2, _⟩ =>
    show e.val = if b = 1 then 0 else e.val
    split
    · have := e.isLt; omega
    · rfl

/-- A vector `[b]` broadcast over the rows to `[n, b]`, read at `(y, j)`, is the vector at `j`. -/
theorem rowBcast2_apply {n b : ℕ} (v : (⟨1, ![b]⟩ : Shape).Idx → α)
    (h1 : (⟨1, ![b]⟩ : Shape).ShapeCasts ⟨2, ![1, b]⟩)
    (h2 : (⟨2, ![1, b]⟩ : Shape).Broadcasts ⟨2, ![n, b]⟩) (y : Fin n) (j : Fin b) :
    broadcastTo ⟨2, ![n, b]⟩ (shapeCast ⟨2, ![1, b]⟩ v h1) h2 (ix2 y j) = v (ix1 j) :=
  (broadcastTo_1b_ab_apply _ h2 y j).trans (shapeCast_a_1a_apply v h1 0 j)

/-- `[n, a, c]` flattened to `[n, m]`, `m = a · c`: position `k = f · c + e` of row `y` is the operand at `(y, f, e)`. -/
theorem flatten_apply {n a c m : ℕ} (x : (⟨3, ![n, a, c]⟩ : Shape).Idx → α)
    (h : (⟨3, ![n, a, c]⟩ : Shape).ShapeCasts ⟨2, ![n, m]⟩) (hm : m = a * c)
    (y : Fin n) (k : Fin m) (f : Fin a) (e : Fin c) (hk : k.val = f.val * c + e.val) :
    shapeCast ⟨2, ![n, m]⟩ x h (ix2 y k) = x (ix3 y f e) :=
  shapeCast_apply x h _ _ (by
    rw [Shape.rowMajor_val_three, Shape.rowMajor_val_two]
    show (y.val * a + f.val) * c + e.val = y.val * m + k.val
    rw [hk, hm]; ring)

/-- Two blocks joined along the columns: below column `p` the left block, from `p` on the right block `p` columns back. -/
theorem concatCols_apply {n p q m : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, m]⟩ 1) (hm : m = p + q)
    (y : Fin n) (k : Fin m) :
    concatenate ⟨2, ![n, m]⟩ 1 [⟨⟨2, ![n, p]⟩, x₁⟩, ⟨⟨2, ![n, q]⟩, x₂⟩] h (ix2 y k)
      = if hk : k.val < p then x₁ (ix2 y ⟨k.val, hk⟩) else x₂ (ix2 y ⟨k.val - p, by have := k.isLt; omega⟩) := by
  by_cases hk : k.val < p
  · rw [dif_pos hk]
    exact concatenate_pair_apply_left (1 : Fin 2) x₁ x₂ h (ix2 y k) rfl (ix2 y ⟨k.val, hk⟩) (fun b => by
      match b with
      | ⟨0, _⟩ => rfl
      | ⟨1, _⟩ => rfl)
  · rw [dif_neg hk]
    exact concatenate_pair_apply_right (1 : Fin 2) x₁ x₂ h (ix2 y k) rfl rfl
      (ix2 y ⟨k.val - p, by have := k.isLt; omega⟩) (fun b hb => by
        match b, hb with
        | ⟨0, _⟩, _ => rfl
        | ⟨1, _⟩, hb => exact absurd rfl hb)
      (by show (k.val - p) + p = k.val; omega)

variable {φ : FTy}

/-- A sum over the columns, at the ideal values: at row `y`, the sum over the column coordinate. -/
theorem sumCols_apply {n K : ℕ} (src : FVec Ideal ⟨2, ![n, K]⟩ φ) (acc : BitVec φ.bits)
    (h : (⟨2, ![n, K]⟩ : Shape).Reduces [1] ⟨1, ![n]⟩) (hφ : FKind.Formats φ) (hacc : acc = FKind.add.neutral φ hφ)
    (y : Fin n) :
    multiReduction .add [1] ⟨1, ![n]⟩ src acc h hφ hacc (ix1 y) = ∑ k : Fin K, src (ix2 y k) := by
  refine (Ideal.multiReduction_add_single src acc h hφ hacc (ix1 y)).trans ?_
  refine Finset.sum_congr rfl fun k _ => congrArg src (funext fun c => Fin.ext ?_)
  match c with
  | ⟨0, _⟩ => rfl
  | ⟨1, _⟩ => rfl

/-- A sum over the middle axis of `[n, a, b]`, at the ideal values: at `(y, e)`, the sum over the middle coordinate. -/
theorem sumMid_apply {n a b : ℕ} (src : FVec Ideal ⟨3, ![n, a, b]⟩ φ) (acc : BitVec φ.bits)
    (h : (⟨3, ![n, a, b]⟩ : Shape).Reduces [1] ⟨2, ![n, b]⟩) (hφ : FKind.Formats φ)
    (hacc : acc = FKind.add.neutral φ hφ) (y : Fin n) (e : Fin b) :
    multiReduction .add [1] ⟨2, ![n, b]⟩ src acc h hφ hacc (ix2 y e) = ∑ f : Fin a, src (ix3 y f e) := by
  refine (Ideal.multiReduction_add_single src acc h hφ hacc (ix2 y e)).trans ?_
  refine Finset.sum_congr rfl fun k _ => congrArg src (funext fun c => Fin.ext ?_)
  match c with
  | ⟨0, _⟩ => rfl
  | ⟨1, _⟩ => rfl
  | ⟨2, _⟩ => rfl

end Cert.RowLayout
-- ==== Proof.KernelBlock.lean ====
/-
  The kernel body's arithmetic on one block of 16000 edges, at the ideal values: the value the body stores is the
  specification's message of the loaded blocks.

  Read at an index `(p, o)`: a format change is the identity, a cast to the same shape is the identity, a matrix
  product into the zero array is the 32-term sum over the contraction coordinate, the three slices of `W1` are its
  rows 0‥31, 32‥63 and 64, a row broadcast reads the one row, a column broadcast reads the one column, the lane sum is
  the sum over the column coordinate, and the pointwise operations read pointwise.
-/
import proofs.«170225_j80204219285966_1_alg».proof.Proof.Gen.KernelIdeal.Skeleton
import proofs.«170225_j80204219285966_1_alg».proof.Proof.Spec
import proofs.«170225_j80204219285966_1_alg».proof.Proof.LibRowLayout
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Block
open Cert.KernelIdeal Cert.KernelIdeal.Gen Idealize.ShloMosaic Idealize.ShloMosaic.ValueIdx Cert.EdgeGate

/-! ## Two layout operations at an index, for general extents -/

section Layout
variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(p, u)`, the operand at `p`, whatever the unit coordinate `u`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Layout

/-! ## The matrix product into the zero array -/

theorem lhs_axis0 (i : S16000x32.Idx) (q : dot_S16000x32_S32x32_S16000x32_1_0_0_1_n_n.contr.Idx) :
    (dot_S16000x32_S32x32_S16000x32_1_0_0_1_n_n.lhsIdx i q 0).val = (i 0).val := by
  unfold DotDims.lhsIdx
  rw [dif_neg (show ¬(0 : Fin S16000x32.rank) ∈ dot_S16000x32_S32x32_S16000x32_1_0_0_1_n_n.lhsBatch by decide), dif_pos (show (0 : Fin S16000x32.rank) ∈ dot_S16000x32_S32x32_S16000x32_1_0_0_1_n_n.lhsNonContracting by decide)]
  rfl
theorem lhs_axis1 (i : S16000x32.Idx) (q : dot_S16000x32_S32x32_S16000x32_1_0_0_1_n_n.contr.Idx) :
    (dot_S16000x32_S32x32_S16000x32_1_0_0_1_n_n.lhsIdx i q 1).val = (q ⟨0, by decide⟩).val :=
  dot_S16000x32_S32x32_S16000x32_1_0_0_1_n_n.lhsIdx_val_of_single rfl i q
theorem rhs_axis0 (i : S16000x32.Idx) (q : dot_S16000x32_S32x32_S16000x32_1_0_0_1_n_n.contr.Idx) :
    (dot_S16000x32_S32x32_S16000x32_1_0_0_1_n_n.rhsIdx i q 0).val = (q ⟨0, by decide⟩).val :=
  dot_S16000x32_S32x32_S16000x32_1_0_0_1_n_n.rhsIdx_val_of_single rfl i q
theorem rhs_axis1 (i : S16000x32.Idx) (q : dot_S16000x32_S32x32_S16000x32_1_0_0_1_n_n.contr.Idx) :
    (dot_S16000x32_S32x32_S16000x32_1_0_0_1_n_n.rhsIdx i q 1).val = (i 1).val := by
  unfold DotDims.rhsIdx
  rw [dif_neg (show ¬(1 : Fin S32x32.rank) ∈ dot_S16000x32_S32x32_S16000x32_1_0_0_1_n_n.rhsBatch by decide), dif_pos (show (1 : Fin S32x32.rank) ∈ dot_S16000x32_S32x32_S16000x32_1_0_0_1_n_n.rhsNonContracting by decide)]
  rfl

/-- The block's matrix product into the zero array, at `(p, o)`: row `p` of the left operand times column `o` of the right. -/
theorem matmul_zero_apply {φ₁ φ₂ : FTy} (A : FVec Ideal S16000x32 φ₁) (W : FVec Ideal S32x32 φ₂) (p : Fin 16000) (o : Fin 32) :
    matmul dot_S16000x32_S32x32_S16000x32_1_0_0_1_n_n none A W (constant S16000x32 .f32 0x00000000#32) (ix2 p o)
      = ∑ k : Fin 32, A (ix2 p k) * W (ix2 k o) := by
  refine (Ideal.matmul_constant_zero_apply dot_S16000x32_S32x32_S16000x32_1_0_0_1_n_n none A W (ix2 p o)).trans ?_
  rw [← Equiv.sum_comp (ValueIdx.contrEquiv1 dot_S16000x32_S32x32_S16000x32_1_0_0_1_n_n 32 rfl rfl).symm]
  refine Finset.sum_congr rfl fun k _ => ?_
  have hk := ValueIdx.contrEquiv1_symm_val dot_S16000x32_S32x32_S16000x32_1_0_0_1_n_n 32 rfl rfl k
  have el : dot_S16000x32_S32x32_S16000x32_1_0_0_1_n_n.lhsIdx (ix2 p o) ((ValueIdx.contrEquiv1 dot_S16000x32_S32x32_S16000x32_1_0_0_1_n_n 32 rfl rfl).symm k) = ix2 p k := funext fun a => Fin.ext (by
    match a with
    | ⟨0, _⟩ => exact lhs_axis0 _ _
    | ⟨1, _⟩ => exact (lhs_axis1 _ _).trans hk)
  have er : dot_S16000x32_S32x32_S16000x32_1_0_0_1_n_n.rhsIdx (ix2 p o) ((ValueIdx.contrEquiv1 dot_S16000x32_S32x32_S16000x32_1_0_0_1_n_n 32 rfl rfl).symm k) = ix2 k o := funext fun a => Fin.ext (by
    match a with
    | ⟨0, _⟩ => exact (rhs_axis0 _ _).trans hk
    | ⟨1, _⟩ => exact rhs_axis1 _ _)
  rw [el, er]

/-! ## The payloads at an index -/

/-- The receiver block in the product's format is the receiver block. -/
theorem pay2_apply (x : Vec Ideal S16000x32 .f32) (i : S16000x32.Idx) : k0_pay2 (F := Ideal) x i = x i :=
  congrFun (shapeCast_self x shapeCasts_S16000x32_S16000x32) i

/-- The sender block in the product's format is the sender block. -/
theorem pay3_apply (x : Vec Ideal S16000x32 .f32) (i : S16000x32.Idx) : k0_pay3 (F := Ideal) x i = x i :=
  congrFun (shapeCast_self x shapeCasts_S16000x32_S16000x32) i

/-- The key product: row `p` of the receiver block times column `o` of `Wk`. -/
theorem pay6_apply (x0 : Vec Ideal S16000x32 .f32) (x7 : Vec Ideal S32x32 .f32) (p : Fin 16000) (o : Fin 32) :
    k0_pay6 (F := Ideal) x0 x7 (ix2 p o) = ∑ k : Fin 32, x0 (ix2 p k) * x7 (ix2 k o) := by
  unfold k0_pay6
  refine (matmul_zero_apply _ _ p o).trans ?_
  refine Finset.sum_congr rfl fun k _ => ?_
  rw [pay2_apply]
  rfl

/-- The query: row `p` of the sender block times column `o` of `Wq`, plus `bq o`. -/
theorem pay5_apply (x1 : Vec Ideal S16000x32 .f32) (x5 : Vec Ideal S32x32 .f32) (x6 : Vec Ideal S1x32 .f32)
    (p : Fin 16000) (o : Fin 32) :
    k0_pay5 (F := Ideal) x1 x5 x6 (ix2 p o) = affine x1 x5 (fun o => x6 (ix2 (0 : Fin 1) o)) p o := by
  unfold k0_pay5 affine
  refine congrArg₂ (· + ·) ?_ ?_
  · refine (matmul_zero_apply _ _ p o).trans ?_
    refine Finset.sum_congr rfl fun k _ => ?_
    rw [pay3_apply]
    rfl
  · refine (broadcastTo_1b_ab_apply _ _ p o).trans ?_
    exact congrFun (shapeCast_self x6 shapeCasts_S1x32_S1x32) _

/-- The relu of the pre-activation: the receiver part, the sender part, the coupling term and the bias, then `max · 0`. -/
theorem pay4_apply (x0 x1 : Vec Ideal S16000x32 .f32) (x2 : Vec Ideal S16000x1 .f32) (x3 : Vec Ideal S65x32 .f32)
    (x4 : Vec Ideal S1x32 .f32) (p : Fin 16000) (q : Fin 32) :
    k0_pay4 (F := Ideal) x0 x1 x2 x3 x4 (ix2 p q)
      = max (preact x0 x1 x2 x3 (fun o => x4 (ix2 (0 : Fin 1) o)) p q) 0 := by
  unfold k0_pay4 preact
  refine congrArg₂ max ?_ ?_
  · refine congrArg₂ (· + ·) ?_ ?_
    · refine congrArg₂ (· + ·) ?_ ?_
      · refine congrArg₂ (· + ·) ?_ ?_
        · refine (matmul_zero_apply _ _ p q).trans ?_
          refine Finset.sum_congr rfl fun k _ => ?_
          refine congrArg₂ (· * ·) (pay2_apply x0 _) ?_
          exact slice2_axis0_apply 0 x3 slices_S65x32_o0_0_S32x32 k q ⟨k.val, by omega⟩ (Nat.zero_add _).symm
        · refine (matmul_zero_apply _ _ p q).trans ?_
          refine Finset.sum_congr rfl fun k _ => ?_
          refine congrArg₂ (· * ·) (pay3_apply x1 _) ?_
          exact slice2_axis0_apply 32 x3 slices_S65x32_o32_0_S32x32 k q ⟨32 + k.val, by omega⟩ rfl
      · refine congrArg₂ (· * ·) ?_ ?_
        · refine (broadcastTo_a1_ab_apply _ _ p q).trans ?_
          exact congrFun (shapeCast_self x2 shapeCasts_S16000x1_S16000x1) _
        · refine (broadcastTo_1b_ab_apply _ _ p q).trans ?_
          exact slice2_axis0_apply 64 x3 slices_S65x32_o64_0_S1x32 (0 : Fin 1) q ⟨64, by omega⟩ rfl
    · refine (broadcastTo_1b_ab_apply _ _ p q).trans ?_
      exact congrFun (shapeCast_self x4 shapeCasts_S1x32_S1x32) _
  · exact Ideal.ofBits_zero_f32

/-- The stored value from the three intermediate arrays: the first times the logistic function of the row's inner
    product of the second with the third plus the key bias. -/
theorem pay1_apply (v26 v35 v36 : FVec Ideal S16000x32 .f32) (x8 : Vec Ideal S1x32 .f32) (p : Fin 16000) (o : Fin 32) :
    k0_pay1 (F := Ideal) v26 v35 v36 x8 (ix2 p o)
      = v26 (ix2 p o) * Ideal.logistic (∑ k : Fin 32, v35 (ix2 p k) * (v36 (ix2 p k) + x8 (ix2 (0 : Fin 1) k))) := by
  unfold k0_pay1
  refine congrArg₂ (· * ·) rfl ?_
  refine (broadcastTo_a1_ab_apply _ _ p o).trans ?_
  refine congrArg Ideal.logistic ?_
  refine (shapeCast_a_a1_apply _ _ p (0 : Fin 1)).trans ?_
  refine (Cert.RowLayout.sumCols_apply _ _ _ _ _ p).trans ?_
  refine Finset.sum_congr rfl fun k _ => ?_
  refine congrArg₂ (· * ·) rfl ?_
  refine congrArg₂ (· + ·) rfl ?_
  refine (broadcastTo_1b_ab_apply _ _ p k).trans ?_
  exact congrFun (shapeCast_self x8 shapeCasts_S1x32_S1x32) _

/-! ## The block's stored value is the specification's message -/

theorem payload_eq (x0 x1 : Vec Ideal S16000x32 .f32) (x2 : Vec Ideal S16000x1 .f32) (x3 : Vec Ideal S65x32 .f32)
    (x4 : Vec Ideal S1x32 .f32) (x5 : Vec Ideal S32x32 .f32) (x6 : Vec Ideal S1x32 .f32) (x7 : Vec Ideal S32x32 .f32)
    (x8 : Vec Ideal S1x32 .f32) :
    k0_pay1 (F := Ideal) (k0_pay4 x0 x1 x2 x3 x4) (k0_pay5 x1 x5 x6) (k0_pay6 x0 x7) x8
      = msg (n := 16000) x0 x1 x2 x3 (fun o => x4 (ix2 (0 : Fin 1) o)) x5 (fun o => x6 (ix2 (0 : Fin 1) o)) x7
          (fun o => x8 (ix2 (0 : Fin 1) o)) := by
  funext i
  obtain ⟨p, q, rfl⟩ : ∃ (p : Fin 16000) (q : Fin 32), i = ix2 p q := ⟨i 0, i 1, eq_ix2 i⟩
  refine (pay1_apply _ _ _ x8 p q).trans ?_
  refine Eq.trans ?_ (msg_ix2 x0 x1 x2 x3 _ x5 _ x7 _ p q).symm
  unfold msgAt gate
  refine congrArg₂ (· * ·) (pay4_apply x0 x1 x2 x3 x4 p q) ?_
  refine congrArg Ideal.logistic ?_
  refine Finset.sum_congr rfl fun k _ => ?_
  refine congrArg₂ (· * ·) (pay5_apply x1 x5 x6 p k) ?_
  unfold affine
  exact congrArg (· + x8 (ix2 (0 : Fin 1) k)) (pay6_apply x0 x7 p k)

end Cert.KernelIdeal.Block

end
-- ==== Proof.KernelArray.lean ====
/-
  The messages array the kernel leaves: each grid point writes back one block of 16000 edges, and that block is the
  specification's message of the same 16000 rows of the three per-edge arrays; the 200 blocks tile the 3200000 rows.
-/
import proofs.«170225_j80204219285966_1_alg».proof.Proof.Gen.KernelIdeal.Frame
import proofs.«170225_j80204219285966_1_alg».proof.Proof.Spec
import proofs.«170225_j80204219285966_1_alg».proof.Proof.KernelBlock
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Arr

open Cert.KernelIdeal Cert.KernelIdeal.Gen Cert.EdgeGate

variable (m : (ℓ : Loc nD τ sig) → Buf (Elt Ideal) ℓ)

theorem hz : (![0, 0] : Fin 2 → Nat) = fun _ => 0 := funext fun a => by fin_cases a <;> rfl

/-- The block indices of the ten windows at grid point `t`: the three per-edge windows and the output move down the
    rows with the point, the six weight and bias windows stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_9.index t (0 : Fin 2) = t.val ∧ win0_9.index t (1 : Fin 2) = 0 :=
  (by decide +kernel : ∀ t : Fin grid0.N, _)

theorem idx_facts_w : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Row `p` of the receiver window's block at point `t` is row `16000 t + p` of the gathered receiver features. -/
theorem iblk0_apply (c : Dev nD) (t : Fin cfg0.N) (p : Fin 16000) (k : Fin 32) (e : Fin 3200000)
    (he : e.val = 16000 * t.val + p.val) :
    (iblk m c 0 t : Vec Ideal S16000x32 .f32) (ix2 p k) = (V m c main_v6 : S3200000x32.Idx → EReal) (ix2 e k) := by
  obtain ⟨e0, e1, -⟩ := idx_facts t
  unfold iblk
  rw [View.read_apply]
  show V m c main_v6 _ = V m c main_v6 _
  refine congrArg _ (funext fun a => Fin.ext ?_)
  match a with
  | ⟨0, _⟩ => show win0_0.index t (0 : Fin 2) * 16000 + 1 * p.val = e.val; rw [e0, he]; omega
  | ⟨1, _⟩ => show win0_0.index t (1 : Fin 2) * 32 + 1 * k.val = k.val; rw [e1]; omega

/-- The same for the sender window. -/
theorem iblk1_apply (c : Dev nD) (t : Fin cfg0.N) (p : Fin 16000) (k : Fin 32) (e : Fin 3200000)
    (he : e.val = 16000 * t.val + p.val) :
    (iblk m c 1 t : Vec Ideal S16000x32 .f32) (ix2 p k) = (V m c main_v13 : S3200000x32.Idx → EReal) (ix2 e k) := by
  obtain ⟨-, -, e0, e1, -⟩ := idx_facts t
  unfold iblk
  rw [View.read_apply]
  show V m c main_v13 _ = V m c main_v13 _
  refine congrArg _ (funext fun a => Fin.ext ?_)
  match a with
  | ⟨0, _⟩ => show win0_1.index t (0 : Fin 2) * 16000 + 1 * p.val = e.val; rw [e0, he]; omega
  | ⟨1, _⟩ => show win0_1.index t (1 : Fin 2) * 32 + 1 * k.val = k.val; rw [e1]; omega

/-- The same for the coupling column. -/
theorem iblk2_apply (c : Dev nD) (t : Fin cfg0.N) (p : Fin 16000) (e : Fin 3200000)
    (he : e.val = 16000 * t.val + p.val) :
    (iblk m c 2 t : Vec Ideal S16000x1 .f32) (ix2 p (0 : Fin 1)) = (V m c main_v15 : S3200000x1.Idx → EReal) (ix2 e (0 : Fin 1)) := by
  obtain ⟨-, -, -, -, e0, e1, -⟩ := idx_facts t
  unfold iblk
  rw [View.read_apply]
  show V m c main_v15 _ = V m c main_v15 _
  refine congrArg _ (funext fun a => Fin.ext ?_)
  match a with
  | ⟨0, _⟩ => show win0_2.index t (0 : Fin 2) * 16000 + 1 * p.val = e.val; rw [e0, he]; omega
  | ⟨1, _⟩ => show win0_2.index t (1 : Fin 2) * 1 + 1 * 0 = 0; rw [e1]

/-- A weight or bias window's one block is its whole array. -/
theorem iblk3_eq (c : Dev nD) (t : Fin cfg0.N) : (iblk m c 3 t : Vec Ideal S65x32 .f32) = (V m c main_arg2 : S65x32.Idx → EReal) := by
  obtain ⟨e0, e1, -⟩ := idx_facts_w t
  funext j
  unfold iblk
  rw [View.read_apply]
  show V m c main_arg2 _ = V m c main_arg2 _
  refine congrArg _ (funext fun a => Fin.ext ?_)
  match a with
  | ⟨0, _⟩ => show win0_3.index t (0 : Fin 2) * 65 + 1 * (j 0).val = (j 0).val; rw [e0]; omega
  | ⟨1, _⟩ => show win0_3.index t (1 : Fin 2) * 32 + 1 * (j 1).val = (j 1).val; rw [e1]; omega
theorem iblk4_eq (c : Dev nD) (t : Fin cfg0.N) : (iblk m c 4 t : Vec Ideal S1x32 .f32) = (V m c main_v16 : S1x32.Idx → EReal) := by
  obtain ⟨-, -, e0, e1, -⟩ := idx_facts_w t
  funext j
  unfold iblk
  rw [View.read_apply]
  show V m c main_v16 _ = V m c main_v16 _
  refine congrArg _ (funext fun a => Fin.ext ?_)
  match a with
  | ⟨0, _⟩ => show win0_4.index t (0 : Fin 2) * 1 + 1 * (j 0).val = (j 0).val; rw [e0]; omega
  | ⟨1, _⟩ => show win0_4.index t (1 : Fin 2) * 32 + 1 * (j 1).val = (j 1).val; rw [e1]; omega
theorem iblk5_eq (c : Dev nD) (t : Fin cfg0.N) : (iblk m c 5 t : Vec Ideal S32x32 .f32) = (V m c main_arg4 : S32x32.Idx → EReal) := by
  obtain ⟨-, -, -, -, e0, e1, -⟩ := idx_facts_w t
  funext j
  unfold iblk
  rw [View.read_apply]
  show V m c main_arg4 _ = V m c main_arg4 _
  refine congrArg _ (funext fun a => Fin.ext ?_)
  match a with
  | ⟨0, _⟩ => show win0_5.index t (0 : Fin 2) * 32 + 1 * (j 0).val = (j 0).val; rw [e0]; omega
  | ⟨1, _⟩ => show win0_5.index t (1 : Fin 2) * 32 + 1 * (j 1).val = (j 1).val; rw [e1]; omega
theorem iblk6_eq (c : Dev nD) (t : Fin cfg0.N) : (iblk m c 6 t : Vec Ideal S1x32 .f32) = (V m c main_v17 : S1x32.Idx → EReal) := by
  obtain ⟨-, -, -, -, -, -, e0, e1, -⟩ := idx_facts_w t
  funext j
  unfold iblk
  rw [View.read_apply]
  show V m c main_v17 _ = V m c main_v17 _
  refine congrArg _ (funext fun a => Fin.ext ?_)
  match a with
  | ⟨0, _⟩ => show win0_6.index t (0 : Fin 2) * 1 + 1 * (j 0).val = (j 0).val; rw [e0]; omega
  | ⟨1, _⟩ => show win0_6.index t (1 : Fin 2) * 32 + 1 * (j 1).val = (j 1).val; rw [e1]; omega
theorem iblk7_eq (c : Dev nD) (t : Fin cfg0.N) : (iblk m c 7 t : Vec Ideal S32x32 .f32) = (V m c main_arg6 : S32x32.Idx → EReal) := by
  obtain ⟨-, -, -, -, -, -, -, -, e0, e1, -⟩ := idx_facts_w t
  funext j
  unfold iblk
  rw [View.read_apply]
  show V m c main_arg6 _ = V m c main_arg6 _
  refine congrArg _ (funext fun a => Fin.ext ?_)
  match a with
  | ⟨0, _⟩ => show win0_7.index t (0 : Fin 2) * 32 + 1 * (j 0).val = (j 0).val; rw [e0]; omega
  | ⟨1, _⟩ => show win0_7.index t (1 : Fin 2) * 32 + 1 * (j 1).val = (j 1).val; rw [e1]; omega
theorem iblk8_eq (c : Dev nD) (t : Fin cfg0.N) : (iblk m c 8 t : Vec Ideal S1x32 .f32) = (V m c main_v18 : S1x32.Idx → EReal) := by
  obtain ⟨-, -, -, -, -, -, -, -, -, -, e0, e1⟩ := idx_facts_w t
  funext j
  unfold iblk
  rw [View.read_apply]
  show V m c main_v18 _ = V m c main_v18 _
  refine congrArg _ (funext fun a => Fin.ext ?_)
  match a with
  | ⟨0, _⟩ => show win0_8.index t (0 : Fin 2) * 1 + 1 * (j 0).val = (j 0).val; rw [e0]; omega
  | ⟨1, _⟩ => show win0_8.index t (1 : Fin 2) * 32 + 1 * (j 1).val = (j 1).val; rw [e1]; omega

/-- The messages of all 3200000 edges, from the arrays as the region finds them. -/
def messages (c : Dev nD) : Buf (Elt Ideal) ((c : Thread nD τ).loc main_v19) :=
  msg (n := 3200000) (V m c main_v6) (V m c main_v13) (V m c main_v15) (V m c main_arg2)
    (fun o => (V m c main_v16 : S1x32.Idx → EReal) (ix2 (0 : Fin 1) o)) (V m c main_arg4)
    (fun o => (V m c main_v17 : S1x32.Idx → EReal) (ix2 (0 : Fin 1) o)) (V m c main_arg6)
    (fun o => (V m c main_v18 : S1x32.Idx → EReal) (ix2 (0 : Fin 1) o))

/-- What point `t` writes back is block `t` of the messages: rows `16000 t ‥ 16000 t + 15999`. -/
theorem flushed_eq (c : Dev nD) (t : Fin cfg0.N) :
    (dats m 0 c).flushed 9 t = ((cfg0.win 9).blk t).view.read (Elt Ideal) (messages m c) := by
  show (cfg0.win 9).cut (grid0.coords t) ((dats m 0 c).after 9 t) = _
  rw [after0_9]
  unfold out0_9
  rw [View.canon_unit_zero hz]
  simp only [View.ld_unit_zero (S := S16000x32) hz, View.ld_unit_zero (S := S16000x1) hz, View.ld_unit_zero (S := S65x32) hz,
    View.ld_unit_zero (S := S1x32) hz, View.ld_unit_zero (S := S32x32) hz]
  refine (congrArg _ (Block.payload_eq (iblk m c 0 t) (iblk m c 1 t) (iblk m c 2 t) (iblk m c 3 t) (iblk m c 4 t) (iblk m c 5 t) (iblk m c 6 t) (iblk m c 7 t) (iblk m c 8 t))).trans ?_
  rw [iblk3_eq, iblk4_eq, iblk5_eq, iblk6_eq, iblk7_eq, iblk8_eq]
  obtain ⟨-, -, -, -, -, -, e0, e1⟩ := idx_facts t
  funext j
  obtain ⟨p, q, rfl⟩ : ∃ (p : Fin 16000) (q : Fin 32), j = ix2 p q := ⟨j 0, j 1, eq_ix2 j⟩
  have hlt : 16000 * t.val + p.val < 3200000 := by
    have := t.isLt; have hN : cfg0.N = 200 := N_0; have := p.isLt; omega
  have hemb : ((cfg0.win 9).blk t).view.emb (ix2 p q)
      = (ix2 (⟨16000 * t.val + p.val, hlt⟩ : Fin 3200000) q : S3200000x32.Idx) := by
    funext a; apply Fin.ext
    match a with
    | ⟨0, _⟩ => show win0_9.index t (0 : Fin 2) * 16000 + 1 * p.val = 16000 * t.val + p.val; rw [e0]; omega
    | ⟨1, _⟩ => show win0_9.index t (1 : Fin 2) * 32 + 1 * q.val = q.val; rw [e1]; omega
  rw [View.read_apply, hemb]
  show msg (n := 16000) _ _ _ _ _ _ _ _ _ (ix2 p q) = _
  unfold messages
  rw [msg_ix2, msg_ix2]
  exact msgAt_congr_rows _ _ _ _ _ _ _ _ _ _ _ _ p ⟨16000 * t.val + p.val, hlt⟩
    (fun k => iblk0_apply m c t p k _ rfl) (fun k => iblk1_apply m c t p k _ rfl) (iblk2_apply m c t p _ rfl) q

/-- An index of the messages array lies in point `t`'s block iff each coordinate lies in the block's range. -/
theorem mem_blk9 (t : Fin cfg0.N) (i : S3200000x32.Idx) :
    i ∈ ((cfg0.win 9).blk t).view.set ↔ ∀ a : Fin 2, win0_9.index t a * S16000x32.size a ≤ (i a).val
      ∧ (i a).val < win0_9.index t a * S16000x32.size a + S16000x32.size a := by
  show i ∈ ((View.whole main_v19).slice (win0_9.rect t)).set ↔ _
  rw [View.set_slice_whole, Rect.mem_set_unit]
  exact Iff.rfl

/-- Row `r` is in the block of point `r / 16000`, so the 200 blocks cover the array and it ends holding the messages. -/
theorem final9 (c : Dev nD) : (dats m 0 c).arrAt 9 cfg0.N = messages m c :=
  (dats m 0 c).arrAt_eq_of_cover 9 (messages m c) (fun t _ => flushed_eq m c t) fun (i : S3200000x32.Idx) => by
    have h0 : (i 0).val < 3200000 := (i 0).isLt
    have h1 : (i 1).val < 32 := (i 1).isLt
    have hN : cfg0.N = 200 := N_0
    have ht : (i 0).val / 16000 < cfg0.N := by omega
    refine ⟨⟨(i 0).val / 16000, ht⟩, flush0_9 _, ?_⟩
    rw [mem_blk9]
    obtain ⟨-, -, -, -, -, -, e0, e1⟩ := idx_facts ⟨(i 0).val / 16000, ht⟩
    intro a
    match a with
    | ⟨0, _⟩ =>
      show win0_9.index ⟨(i 0).val / 16000, ht⟩ (0 : Fin 2) * 16000 ≤ (i 0).val
        ∧ (i 0).val < win0_9.index ⟨(i 0).val / 16000, ht⟩ (0 : Fin 2) * 16000 + 16000
      rw [e0]; show (i 0).val / 16000 * 16000 ≤ (i 0).val ∧ (i 0).val < (i 0).val / 16000 * 16000 + 16000; omega
    | ⟨1, _⟩ =>
      show win0_9.index ⟨(i 0).val / 16000, ht⟩ (1 : Fin 2) * 32 ≤ (i 1).val
        ∧ (i 1).val < win0_9.index ⟨(i 0).val / 16000, ht⟩ (1 : Fin 2) * 32 + 32
      rw [e1]; omega

end Cert.KernelIdeal.Arr

end
-- ==== Proof.KernelRun.lean ====
/-
  The kernel's program around its one region: the arrays the region finds are the host operations before it applied
  to the arguments (two row gathers of the node features, the coupling vector doubled and made a column, the three
  biases made rows), and the program's result is the host operations after it (a scatter-add of the messages into
  zeros by receiver, then a maximum with zero) applied to the messages array the region leaves.
-/
import proofs.«170225_j80204219285966_1_alg».proof.Proof.Gen.KernelIdeal.Frame
import proofs.«170225_j80204219285966_1_alg».proof.Proof.Gen.ReferenceIdeal.Read
import Idealize.ShloMosaic.Lib.Pipeline.Value
import Idealize.ShloMosaic.Lib.ValueLayout
import Idealize.ShloMosaic.Lib.StableHlo.Run

noncomputable section

open Idealize.ShloMosaic Idealize.ShloMosaic.TcCoe Idealize.SL.Sem
open Idealize.ShloMosaic.Pipeline (Dat)

namespace Cert.KernelIdeal.Around

open Cert.KernelIdeal Cert.KernelIdeal.Gen

variable {F : FTy → Type} [FloatOps F]
variable (m : (ℓ : Loc nD τ sig) → Buf (Elt F) ℓ) (ρ : Dev nD → PrngReg)

/-- The host operations after the region, as one function of the receiver indices and the messages. -/
def aggregate (recv : IVec S3200000 32) (u : FVec F S3200000x32 .f32) : FVec F S100000x32 .f32 :=
  maximumf
    (Host.scatterAdd scatter_S100000x32_S3200000x1_S3200000x32_1_0_0_1
      (broadcastInDim S100000x32 ![] bcast_S_S100000x32 (constant (F := F) S_ .f32 0x00000000#32))
      (broadcastInDim S3200000x1 ![0] bcast_S3200000_S3200000x1_0 recv) u)
    (broadcastInDim S100000x32 ![] bcast_S_S100000x32 (constant (F := F) S_ .f32 0x00000000#32))

theorem tail_eq (c : Dev nD) :
    Pipeline.afterTail₀ cfgs (dats m) 0 (V0 m) [hostOps1, hostOps1_1] c main_v23
      = aggregate (m ((c : Thread nD τ).loc main_arg9)) ((dats m 0 c).arrAt 9 cfg0.N) := by
  unfold Pipeline.afterTail₀
  simp only [hostOps1, hostOps1_1, List.flatten_cons, List.flatten_nil, List.append_nil, List.cons_append, List.nil_append]
  after_results
  simp only [StableHlo.TRef.ofBuf, StableHlo.TRef.toBuf, cast_eq]
  rw [Pipeline.withArrays_of_ne _ c (V0 m c) _ main_arg9 (by exact (by decide : ∀ w, Pipeline.arrRef spec0 w ≠ main_arg9)),
    Pipeline.withArrays_arr spec0 launch0.win.arr_inj c _ _ 9]
  rw [show V0 m c (Proc.devRef .tc main_arg9) = m ((c : Thread nD τ).loc main_arg9) from V_main_arg9 m c]
  rfl

/-! ## The arrays the region finds, as the reference's own stages of the same arguments

Both programs compute the three per-edge arrays by the same host operations of the same arguments; each array the
region finds is therefore, term for term, the reference's stage of that name. -/

/-- The receiver rows: the node features gathered at the (wrapped) receiver indices. -/
theorem entry_receivers (c : Dev nD) :
    (V m c main_v6 : S3200000x32.Idx → F .f32)
      = Cert.ReferenceIdeal.Read.val_main_v6 (F := F) (m ((c : Thread nD τ).loc main_arg0)) (m ((c : Thread nD τ).loc main_arg9)) := by
  show StableHlo.after hostOps0 (fun b => m (c, b)) (Proc.devRef .tc main_v6) = _
  after_results
  rfl

/-- The sender rows: the node features gathered at the (wrapped) sender indices. -/
theorem entry_senders (c : Dev nD) :
    (V m c main_v13 : S3200000x32.Idx → F .f32)
      = Cert.ReferenceIdeal.Read.val_main_v13 (F := F) (m ((c : Thread nD τ).loc main_arg0)) (m ((c : Thread nD τ).loc main_arg8)) := by
  show StableHlo.after hostOps0 (fun b => m (c, b)) (Proc.devRef .tc main_v13) = _
  after_results
  rfl

/-- The coupling column: the coupling vector laid twice end to end, as a column. -/
theorem entry_couplings (c : Dev nD) :
    (V m c main_v15 : S3200000x1.Idx → F .f32)
      = Cert.ReferenceIdeal.Read.val_main_v15 (F := F) (m ((c : Thread nD τ).loc main_arg1)) := by
  show StableHlo.after hostOps0 (fun b => m (c, b)) (Proc.devRef .tc main_v15) = _
  after_results
  rfl

/-- A bias as the region finds it — the bias vector reshaped to one row — read at column `o` is the vector at `o`. -/
theorem entry_bias1 (c : Dev nD) (o : Fin 32) :
    (V m c main_v16 : S1x32.Idx → F .f32) (ValueIdx.ix2 (0 : Fin 1) o)
      = (m ((c : Thread nD τ).loc main_arg3) : S32.Idx → F .f32) (ValueIdx.ix1 o) := by
  have e : (V m c main_v16 : S1x32.Idx → F .f32)
      = shapeCast S1x32 (m ((c : Thread nD τ).loc main_arg3) : S32.Idx → F .f32) shapeCasts_S32_S1x32 := by
    show StableHlo.after hostOps0 (fun b => m (c, b)) (Proc.devRef .tc main_v16) = _
    after_results
    rfl
  rw [e]
  exact ValueIdx.shapeCast_a_1a_apply _ shapeCasts_S32_S1x32 0 o
theorem entry_biasq (c : Dev nD) (o : Fin 32) :
    (V m c main_v17 : S1x32.Idx → F .f32) (ValueIdx.ix2 (0 : Fin 1) o)
      = (m ((c : Thread nD τ).loc main_arg5) : S32.Idx → F .f32) (ValueIdx.ix1 o) := by
  have e : (V m c main_v17 : S1x32.Idx → F .f32)
      = shapeCast S1x32 (m ((c : Thread nD τ).loc main_arg5) : S32.Idx → F .f32) shapeCasts_S32_S1x32 := by
    show StableHlo.after hostOps0 (fun b => m (c, b)) (Proc.devRef .tc main_v17) = _
    after_results
    rfl
  rw [e]
  exact ValueIdx.shapeCast_a_1a_apply _ shapeCasts_S32_S1x32 0 o
theorem entry_biask (c : Dev nD) (o : Fin 32) :
    (V m c main_v18 : S1x32.Idx → F .f32) (ValueIdx.ix2 (0 : Fin 1) o)
      = (m ((c : Thread nD τ).loc main_arg7) : S32.Idx → F .f32) (ValueIdx.ix1 o) := by
  have e : (V m c main_v18 : S1x32.Idx → F .f32)
      = shapeCast S1x32 (m ((c : Thread nD τ).loc main_arg7) : S32.Idx → F .f32) shapeCasts_S32_S1x32 := by
    show StableHlo.after hostOps0 (fun b => m (c, b)) (Proc.devRef .tc main_v18) = _
    after_results
    rfl
  rw [e]
  exact ValueIdx.shapeCast_a_1a_apply _ shapeCasts_S32_S1x32 0 o

/-! ## The run, read -/

/-- Every execution of the kernel's program ends with its result at the aggregation of the messages array the region
    leaves, and with the arguments unchanged. -/
theorem run : θ_run defs (onTc (τ := τ) (main (F := F))) ⟨m, fun _ => 0, ρ⟩ (fun r => ∀ c : Dev nD,
      r.2.mem ((c.tc : Thread nD τ).loc main_v23)
          = aggregate (m ((c : Thread nD τ).loc main_arg9)) ((dats m 0 c).arrAt 9 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_v23 (Pipeline.mem_restRefs_of main_v23 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 3).trans (((dats m 0 c).arrAt_in 3 rfl _).trans ((A_eq m c 3).trans (V_main_arg2 m c))),
      (((h c).2 main_arg3 (Pipeline.mem_restRefs_of main_arg3 (by decide) (by decide))).trans (W_main_arg3 m (dats m) c)),
      ((h c).1 5).trans (((dats m 0 c).arrAt_in 5 rfl _).trans ((A_eq m c 5).trans (V_main_arg4 m c))),
      (((h c).2 main_arg5 (Pipeline.mem_restRefs_of main_arg5 (by decide) (by decide))).trans (W_main_arg5 m (dats m) c)),
      ((h c).1 7).trans (((dats m 0 c).arrAt_in 7 rfl _).trans ((A_eq m c 7).trans (V_main_arg6 m c))),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩)
    (run_main m ρ)

end Cert.KernelIdeal.Around

end
-- ==== Proof.RefMsg.lean ====
/-
  The reference program's messages array is the specification's message of the gathered rows.

  The reference joins, for each edge, the receiver's row, the sender's row and the coupling into one row of 65 entries
  and multiplies it by the 65 × 32 weight; read column by column the joined row is the three pieces laid end to end, so
  the 65-term sum is the receiver part plus the sender part plus the coupling's single term.  The two 32 × 32 products
  with their biases are the affine maps of the gate, the reduction over the 32 columns starts from zero, and
  one over one plus the exponential of the negated sum is the logistic function.
-/
import proofs.«170225_j80204219285966_1_alg».proof.Proof.Gen.ReferenceIdeal.Read
import proofs.«170225_j80204219285966_1_alg».proof.Proof.Spec
import Idealize.ShloMosaic.Lib.IdealHost

noncomputable section

open scoped BigOperators

namespace Cert.ReferenceIdeal.RefMsg
open Cert.ReferenceIdeal Cert.ReferenceIdeal.Gen Cert.ReferenceIdeal.Read Idealize.ShloMosaic Idealize.ShloMosaic.ValueIdx Cert.EdgeGate

/-! ### The joined row read column by column -/

section Concat
variable (A B : Mat 3200000 32) (C : Mat 3200000 1)

/-- Columns 0‥31 of the joined array are the first piece. -/
theorem cat_fst (e : Fin 3200000) (k : Fin 32) :
    concatenate S3200000x65 1 [⟨S3200000x32, A⟩, ⟨S3200000x32, B⟩, ⟨S3200000x1, C⟩]
        concatenates_S3200000x32_S3200000x32_S3200000x1_S3200000x65_d1 (ix2 e (⟨k.val, by omega⟩ : Fin 65))
      = A (ix2 e k) :=
  concatenate_apply_piece (1 : Fin S3200000x65.rank) _ _ _ 0 (by show (0 : Nat) < 3; omega) S3200000x32 A rfl rfl 0 rfl (ix2 e k)
    (fun b hb => by match b with | ⟨0, _⟩ => rfl | ⟨1, _⟩ => exact absurd rfl hb) (Nat.zero_add _)

/-- Columns 32‥63 of the joined array are the second piece. -/
theorem cat_snd (e : Fin 3200000) (k : Fin 32) :
    concatenate S3200000x65 1 [⟨S3200000x32, A⟩, ⟨S3200000x32, B⟩, ⟨S3200000x1, C⟩]
        concatenates_S3200000x32_S3200000x32_S3200000x1_S3200000x65_d1 (ix2 e (⟨32 + k.val, by omega⟩ : Fin 65))
      = B (ix2 e k) :=
  concatenate_apply_piece (1 : Fin S3200000x65.rank) _ _ _ 1 (by show (1 : Nat) < 3; omega) S3200000x32 B rfl rfl 32 rfl (ix2 e k)
    (fun b hb => by match b with | ⟨0, _⟩ => rfl | ⟨1, _⟩ => exact absurd rfl hb) rfl

/-- Column 64 of the joined array is the third piece's only column. -/
theorem cat_trd (e : Fin 3200000) :
    concatenate S3200000x65 1 [⟨S3200000x32, A⟩, ⟨S3200000x32, B⟩, ⟨S3200000x1, C⟩]
        concatenates_S3200000x32_S3200000x32_S3200000x1_S3200000x65_d1 (ix2 e (⟨64, by omega⟩ : Fin 65))
      = C (ix2 e (0 : Fin 1)) :=
  concatenate_apply_piece (1 : Fin S3200000x65.rank) _ _ _ 2 (by show (2 : Nat) < 3; omega) S3200000x1 C rfl rfl 64 rfl (ix2 e (0 : Fin 1))
    (fun b hb => by match b with | ⟨0, _⟩ => rfl | ⟨1, _⟩ => exact absurd rfl hb) rfl

end Concat

/-! ### The stages read at `(e, o)` -/

section Stages
variable (x0 : (⟨S100000x32, .f32⟩ : BufTy).Contents (Elt Ideal)) (x1 : (⟨S1600000, .f32⟩ : BufTy).Contents (Elt Ideal)) (x2 : (⟨S65x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 x9 : (⟨S3200000, .i32⟩ : BufTy).Contents (Elt Ideal))

/-- A bias vector laid along every edge, read at `(e, o)`, is the vector at `o`. -/
theorem v19_at (e : Fin 3200000) (o : Fin 32) : val_main_v19 (F := Ideal) x3 (ix2 e o) = x3 (ix1 o) := by
  rw [val_main_v19_apply, val_main_v18_apply]
  exact congrArg x3 (funext fun a => by match a with | ⟨0, _⟩ => rfl)

theorem v24_at (e : Fin 3200000) (o : Fin 32) : val_main_v24 (F := Ideal) x5 (ix2 e o) = x5 (ix1 o) := by
  rw [val_main_v24_apply, val_main_v23_apply]
  exact congrArg x5 (funext fun a => by match a with | ⟨0, _⟩ => rfl)

theorem v28_at (e : Fin 3200000) (o : Fin 32) : val_main_v28 (F := Ideal) x7 (ix2 e o) = x7 (ix1 o) := by
  rw [val_main_v28_apply, val_main_v27_apply]
  exact congrArg x7 (funext fun a => by match a with | ⟨0, _⟩ => rfl)

/-- The joined row times the 65 × 32 weight: the receiver part, the sender part and the coupling's term. -/
theorem v17_at (e : Fin 3200000) (o : Fin 32) :
    val_main_v17 (F := Ideal) x0 x1 x2 x8 x9 (ix2 e o)
      = ((∑ k : Fin 32, val_main_v6 (F := Ideal) x0 x9 (ix2 e k) * x2 (ix2 (⟨k.val, by omega⟩ : Fin 65) o))
          + (∑ k : Fin 32, val_main_v13 (F := Ideal) x0 x8 (ix2 e k) * x2 (ix2 (⟨32 + k.val, by omega⟩ : Fin 65) o)))
        + val_main_v15 (F := Ideal) x1 (ix2 e (0 : Fin 1)) * x2 (ix2 (⟨64, by omega⟩ : Fin 65) o) := by
  rw [val_main_v17_apply]
  have h : ∀ k : Fin 65, val_main_v16 (F := Ideal) x0 x1 x8 x9 (lidx_main_v17 (ix2 e o) k) * x2 (ridx_main_v17 (ix2 e o) k)
      = val_main_v16 (F := Ideal) x0 x1 x8 x9 (ix2 e k) * x2 (ix2 k o) := fun k => by
    have hl : lidx_main_v17 (ix2 e o) k = ix2 e k := funext fun a => by match a with | ⟨0, _⟩ => rfl | ⟨1, _⟩ => rfl
    have hr : ridx_main_v17 (ix2 e o) k = ix2 k o := funext fun a => by match a with | ⟨0, _⟩ => rfl | ⟨1, _⟩ => rfl
    rw [hl, hr]
  rw [Finset.sum_congr rfl (fun k _ => h k), sum65_split]
  unfold val_main_v16
  simp only [cat_fst, cat_snd, cat_trd]

/-- The sender's row times `Wq` plus `bq`. -/
theorem v25_at (e : Fin 3200000) (o : Fin 32) :
    val_main_v25 (F := Ideal) x0 x4 x5 x8 (ix2 e o)
      = affine (val_main_v13 (F := Ideal) x0 x8) x4 (fun o => x5 (ix1 o)) e o := by
  rw [val_main_v25_apply, val_main_v22_apply, v24_at, Ideal.addf_def]
  unfold affine
  refine congrArg (· + x5 (ix1 o)) (Finset.sum_congr rfl fun k _ => ?_)
  have hl : lidx_main_v22 (ix2 e o) k = ix2 e k := funext fun a => by match a with | ⟨0, _⟩ => rfl | ⟨1, _⟩ => rfl
  have hr : ridx_main_v22 (ix2 e o) k = ix2 k o := funext fun a => by match a with | ⟨0, _⟩ => rfl | ⟨1, _⟩ => rfl
  rw [hl, hr]

/-- The receiver's row times `Wk` plus `bk`. -/
theorem v29_at (e : Fin 3200000) (o : Fin 32) :
    val_main_v29 (F := Ideal) x0 x6 x7 x9 (ix2 e o)
      = affine (val_main_v6 (F := Ideal) x0 x9) x6 (fun o => x7 (ix1 o)) e o := by
  rw [val_main_v29_apply, val_main_v26_apply, v28_at, Ideal.addf_def]
  unfold affine
  refine congrArg (· + x7 (ix1 o)) (Finset.sum_congr rfl fun k _ => ?_)
  have hl : lidx_main_v26 (ix2 e o) k = ix2 e k := funext fun a => by match a with | ⟨0, _⟩ => rfl | ⟨1, _⟩ => rfl
  have hr : ridx_main_v26 (ix2 e o) k = ix2 k o := funext fun a => by match a with | ⟨0, _⟩ => rfl | ⟨1, _⟩ => rfl
  rw [hl, hr]

/-- One over one plus the exponential of the negated inner product of the two affine images: the gate. -/
theorem v38_at (e : Fin 3200000) :
    val_main_v38 (F := Ideal) x0 x4 x5 x6 x7 x8 x9 (ix2 e (0 : Fin 1))
      = gate (val_main_v6 (F := Ideal) x0 x9) (val_main_v13 (F := Ideal) x0 x8) x4 (fun o => x5 (ix1 o)) x6
          (fun o => x7 (ix1 o)) e := by
  rw [val_main_v38_apply, val_main_v37_apply, val_main_cst_4_apply, val_main_v36_apply, val_main_v35_apply,
    val_main_cst_3_apply, val_main_v34_apply, val_main_v33_apply, val_main_v32_apply, val_main_v31_apply,
    val_main_cst_apply]
  simp only [Ideal.hostDivf_def, Ideal.ofBits_def, Ideal.ofBits_one_f32, Ideal.ofBits_zero_f32, Ideal.addf_def,
    Ideal.hostUnary_exp_def, Ideal.hostNegf_def, Ideal.negf_def, zero_add]
  unfold gate Ideal.logistic
  refine congrArg (fun s => Ideal.div 1 (1 + Ideal.exp (-s))) (Finset.sum_congr rfl fun k _ => ?_)
  have hi : idx_main_v31 (idx_main_v32 (ix2 e (0 : Fin 1))) k = ix2 e k :=
    funext fun a => by match a with | ⟨0, _⟩ => rfl | ⟨1, _⟩ => rfl
  rw [hi, val_main_v30_apply, Ideal.mulf_def, v25_at, v29_at]

end Stages

/-- The messages array is the specification's message of the gathered rows. -/
theorem messages_eq (x0 : (⟨S100000x32, .f32⟩ : BufTy).Contents (Elt Ideal)) (x1 : (⟨S1600000, .f32⟩ : BufTy).Contents (Elt Ideal)) (x2 : (⟨S65x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 x9 : (⟨S3200000, .i32⟩ : BufTy).Contents (Elt Ideal)) :
    val_main_v40 (F := Ideal) x0 x1 x2 x3 x4 x5 x6 x7 x8 x9
      = msg (n := 3200000) (val_main_v6 (F := Ideal) x0 x9) (val_main_v13 (F := Ideal) x0 x8) (val_main_v15 (F := Ideal) x1) x2
          (fun o => x3 (ix1 o)) x4 (fun o => x5 (ix1 o)) x6 (fun o => x7 (ix1 o)) := by
  funext i
  obtain ⟨e, o, rfl⟩ : ∃ e o, i = ix2 e o := ⟨i 0, i 1, eq_ix2 i⟩
  have h39 : idx_main_v39 (ix2 e o) = ix2 e (0 : Fin 1) :=
    funext fun a => by match a with | ⟨0, _⟩ => rfl | ⟨1, _⟩ => rfl
  rw [msg_ix2, val_main_v40_apply, val_main_v21_apply, val_main_v20_apply, val_main_call0_v0_apply,
    val_main_call0_cst_apply, v17_at, v19_at, val_main_v39_apply, h39, v38_at]
  simp only [Ideal.mulf_def, Ideal.maximumf_def, Ideal.addf_def, Ideal.ofBits_def, Ideal.ofBits_zero_f32]
  rfl

end Cert.ReferenceIdeal.RefMsg

end
-- ==== Proof.lean ====
/-
  Per-edge messages with an attention gate, summed into their receiver nodes: the kernel against its reference.

  Both programs gather, for each of the 3200000 edges, the receiver's and the sender's 32 node features, and lay the
  coupling vector twice end to end as one more per-edge column.  The reference joins the three into a 65-entry row,
  multiplies by `W1`, adds `b1`, takes the maximum with zero, and multiplies by the logistic function of the inner
  product of `q = sender · Wq + bq` and `k = receiver · Wk + bk`; it then adds every edge's message into its
  receiver's row of a zero array and takes the maximum with zero.  The kernel computes the same messages 16000 edges
  at a time, with the 65-term product written as the receiver's 32 terms, the sender's 32 terms and the coupling's
  one term, and then applies the same scatter-add and maximum.

  Over the extended reals the two agree because a sum over 65 indices is the sum over the first 32, the next 32 and
  the last one (`Cert.EdgeGate.sum65_split`): only commutativity and associativity of addition are used, so the
  precondition is never opened.  The pieces:
  * `Cert.EdgeGate` (Spec): the message of one edge as a function of that edge's rows;
  * `Cert.KernelIdeal.Block.payload_eq`: what the kernel body stores for a block of 16000 edges is that function of
    the block's rows;
  * `Cert.KernelIdeal.Arr.final9`: the 200 blocks tile the messages array, which therefore ends holding that function
    of all rows;
  * `Cert.KernelIdeal.Around`: the arrays the region finds are the reference's own stages of the same arguments, and
    the program's result is the scatter-add and maximum of the messages array;
  * `Cert.ReferenceIdeal.RefMsg.messages_eq`: the reference's messages stage is the same function of the same rows.
  The kernel is its own idealization (nothing was rewritten), so `preserves` has nothing to state.
-/
import proofs.«170225_j80204219285966_1_alg».proof.Defs
import proofs.«170225_j80204219285966_1_alg».proof.Proof.Gen.Kernel
import proofs.«170225_j80204219285966_1_alg».proof.Proof.Gen.Kernel.Frame
import proofs.«170225_j80204219285966_1_alg».proof.Proof.Gen.KernelIdeal
import proofs.«170225_j80204219285966_1_alg».proof.Proof.Gen.KernelIdeal.Frame
import proofs.«170225_j80204219285966_1_alg».proof.Proof.Gen.ReferenceIdeal
import proofs.«170225_j80204219285966_1_alg».proof.Proof.Gen.Pre_finite_inputs
import proofs.«170225_j80204219285966_1_alg».proof.Proof.Gen.ReferenceIdeal.Run
import proofs.«170225_j80204219285966_1_alg».proof.Proof.Gen.ReferenceIdeal.Read
import proofs.«170225_j80204219285966_1_alg».proof.Proof.KernelArray
import proofs.«170225_j80204219285966_1_alg».proof.Proof.KernelRun
import proofs.«170225_j80204219285966_1_alg».proof.Proof.RefMsg
import Idealize.ShloMosaic.Adequacy
import Idealize.ShloMosaic.Init

noncomputable section

open Idealize.ShloMosaic Idealize.ShloMosaic.TcCoe Idealize.SL.Sem

namespace Cert.Proof.Bridge

open Cert.KernelIdeal Cert.KernelIdeal.Gen Cert.EdgeGate Idealize.ShloMosaic.ValueIdx

/-- The reference's result is the same scatter-add and maximum, applied to its messages stage. -/
theorem ref_result {F : FTy → Type} [FloatOps F]
    (x0 : (⟨Cert.ReferenceIdeal.S100000x32, .f32⟩ : BufTy).Contents (Elt F)) (x1 : (⟨Cert.ReferenceIdeal.S1600000, .f32⟩ : BufTy).Contents (Elt F))
    (x2 : (⟨Cert.ReferenceIdeal.S65x32, .f32⟩ : BufTy).Contents (Elt F)) (x3 : (⟨Cert.ReferenceIdeal.S32, .f32⟩ : BufTy).Contents (Elt F))
    (x4 : (⟨Cert.ReferenceIdeal.S32x32, .f32⟩ : BufTy).Contents (Elt F)) (x5 : (⟨Cert.ReferenceIdeal.S32, .f32⟩ : BufTy).Contents (Elt F))
    (x6 : (⟨Cert.ReferenceIdeal.S32x32, .f32⟩ : BufTy).Contents (Elt F)) (x7 : (⟨Cert.ReferenceIdeal.S32, .f32⟩ : BufTy).Contents (Elt F))
    (x8 x9 : (⟨Cert.ReferenceIdeal.S3200000, .i32⟩ : BufTy).Contents (Elt F)) :
    Cert.ReferenceIdeal.Read.val_main_v44 (F := F) x0 x1 x2 x3 x4 x5 x6 x7 x8 x9
      = Cert.KernelIdeal.Around.aggregate x9 (Cert.ReferenceIdeal.Read.val_main_v40 (F := F) x0 x1 x2 x3 x4 x5 x6 x7 x8 x9) := rfl

variable (m : (ℓ : Loc nD τ sig) → Buf (Elt Ideal) ℓ)

/-- The messages array the kernel leaves is the reference's messages stage of the same arguments. -/
theorem messages_ref (c : Dev nD) :
    Cert.KernelIdeal.Arr.messages m c
      = Cert.ReferenceIdeal.Read.val_main_v40 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) := by
  rw [Cert.ReferenceIdeal.RefMsg.messages_eq]
  unfold Cert.KernelIdeal.Arr.messages
  rw [Cert.KernelIdeal.Around.entry_receivers, Cert.KernelIdeal.Around.entry_senders, Cert.KernelIdeal.Around.entry_couplings,
    V_main_arg2 m c, V_main_arg4 m c, V_main_arg6 m c]
  have e1 : (fun o : Fin 32 => (V m c main_v16 : S1x32.Idx → EReal) (ix2 (0 : Fin 1) o))
      = fun o => (m ((c : Thread nD τ).loc main_arg3) : S32.Idx → EReal) (ix1 o) :=
    funext (Cert.KernelIdeal.Around.entry_bias1 m c)
  have eq : (fun o : Fin 32 => (V m c main_v17 : S1x32.Idx → EReal) (ix2 (0 : Fin 1) o))
      = fun o => (m ((c : Thread nD τ).loc main_arg5) : S32.Idx → EReal) (ix1 o) :=
    funext (Cert.KernelIdeal.Around.entry_biasq m c)
  have ek : (fun o : Fin 32 => (V m c main_v18 : S1x32.Idx → EReal) (ix2 (0 : Fin 1) o))
      = fun o => (m ((c : Thread nD τ).loc main_arg7) : S32.Idx → EReal) (ix1 o) :=
    funext (Cert.KernelIdeal.Around.entry_biask m c)
  rw [e1, eq, ek]

end Cert.Proof.Bridge

namespace Cert.Proof

open Cert.Kernel

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the scatter-add and maximum of the same messages array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Around.aggregate (F := Ideal) (m ((c : Thread Cert.KernelIdeal.nD Cert.KernelIdeal.τ).loc Cert.KernelIdeal.main_arg9))
    (Cert.KernelIdeal.Arr.messages m c), ?_, ?_⟩
  · refine (θ_run Cert.KernelIdeal.defs _ _).mono (fun _ h c => ⟨(h c).1.trans ?_, (h c).2⟩)
      (Cert.KernelIdeal.Around.run (F := Ideal) m ρ)
    rw [Cert.KernelIdeal.Arr.final9]
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    rw [h0, h1, h2, h3, h4, h5, h6, h7, h8, h9, Cert.ReferenceIdeal.Read.val_main_v44_eq, Cert.Proof.Bridge.ref_result,
      ← Cert.Proof.Bridge.messages_ref m c]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
